-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S64x4096 : Shape := ⟨2, ![64, 4096]⟩
abbrev S64x512x128 : Shape := ⟨3, ![64, 512, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S64x512x128 : S_.BroadcastsInDim S64x512x128 (![] : Fin 0 → Fin S64x512x128.rank)
  reducesTo_S64x512x128_S_d0_1_2 : S64x512x128.ReducesTo [0, 1, 2] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x4096x128 .f32) (main_arg1 : IVec S64x4096 32) (main_arg2 : FVec F S64x512x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x512x128 .f32 := Host.absf main_arg2
  let main_cst_0 : FVec F S_ .f32 := constant S_ .f32 0x7F800000#32
  let main_v5 : FVec F S64x512x128 .f32 := broadcastInDim S64x512x128 ![] bcast_S_S64x512x128 main_cst_0
  let main_v6 : IVec S64x512x128 1 := cmpf .olt main_v4 main_v5
  let main_c_1 : IVec S_ 1 := constantI S_ 1 1#1
  let main_v7 : IVec S_ 1 := (fun x v => Host.reduce IntOp.andi x v reducesTo_S64x512x128_S_d0_1_2 h_S_) main_v6 main_c_1
  let main_v8 : IVec S_ 1 := andi main_v3 main_v7
  let main_c_2 : IVec S_ 32 := constantI S_ 32 0#32
  let main_v9 : IVec S64x4096 32 := broadcastInDim S64x4096 ![] bcast_S_S64x4096 main_c_2
  let main_v10 : IVec S64x4096 1 := cmpi .sge main_arg1 main_v9
  let main_c_3 : IVec S_ 1 := constantI S_ 1 1#1
  let main_v11 : IVec S_ 1 := (fun x v => Host.reduce IntOp.andi x v reducesTo_S64x4096_S_d0_1 h_S_) main_v10 main_c_3
  let main_v12 : IVec S_ 1 := andi main_v8 main_v11
  let main_c_4 : IVec S_ 32 := constantI S_ 32 512#32
  let main_v13 : IVec S64x4096 32 := broadcastInDim S64x4096 ![] bcast_S_S64x4096 main_c_4
  let main_v14 : IVec S64x4096 1 := cmpi .slt main_arg1 main_v13
  let main_c_5 : IVec S_ 1 := constantI S_ 1 1#1
  let main_v15 : IVec S_ 1 := (fun x v => Host.reduce IntOp.andi x v reducesTo_S64x4096_S_d0_1 h_S_) main_v14 main_c_5
  fn_part1 (F := F) main_v12 main_v15
-- ==== Kernel.lean ====
abbrev S64x4096x128 : Shape := ⟨3, ![64, 4096, 128]⟩
abbrev S64x4096 : Shape := ⟨2, ![64, 4096]⟩
abbrev S64x512x128 : Shape := ⟨3, ![64, 512, 128]⟩
abbrev S64x1x4096 : Shape := ⟨3, ![64, 1, 4096]⟩
abbrev S1x1x2048 : Shape := ⟨3, ![1, 1, 2048]⟩
abbrev S1x2048x128 : Shape := ⟨3, ![1, 2048, 128]⟩
abbrev S1x512x128 : Shape := ⟨3, ![1, 512, 128]⟩
abbrev S512x2048 : Shape := ⟨2, ![512, 2048]⟩
abbrev S1x2048 : Shape := ⟨2, ![1, 2048]⟩
abbrev S2048x128 : Shape := ⟨2, ![2048, 128]⟩
abbrev S512x128 : Shape := ⟨2, ![512, 128]⟩

abbrev nBuf : Space → Nat
  | .hbm => 5
  | .vmem => 6
  | .smem => 0
  | _ => 0

abbrev bufTy : (tb : Table) → Fin (tcTables nBuf tb) → BufTy
  | .hbm, ⟨0, _⟩ => ⟨S64x4096x128, .f32⟩
  | .hbm, ⟨1, _⟩ => ⟨S64x4096, .i32⟩
  | .hbm, ⟨2, _⟩ => ⟨S64x512x128, .f32⟩
  | .hbm, ⟨3, _⟩ => ⟨S64x1x4096, .i32⟩
  | .hbm, ⟨4, _⟩ => ⟨S64x512x128, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x128, .f32⟩
  | .local _ .vmem, ⟨3, _⟩ => ⟨S1x2048x128, .f32⟩
  | .local _ .vmem, ⟨4, _⟩ => ⟨S1x512x128, .f32⟩
  | .local _ .vmem, ⟨5, _⟩ => ⟨S1x512x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_5 : BitVec 32 := 0#32
  let v14 : BitVec 1 := Scalar.cmpi .ne v13 c0_i32_5
  v14

def k0_cond2 (i : grid0.Coords) : BitVec 1 :=
  let arg1 : BitVec 32 := BitVec.ofNat 32 (i 1).val
  let c0_i32_6 : BitVec 32 := 0#32
  let v15 : BitVec 1 := Scalar.cmpi .sgt arg1 c0_i32_6
  let v16 : BitVec 32 := Scalar.extui v15
  let c0_i32_7 : BitVec 32 := 0#32
  let v17 : BitVec 1 := Scalar.cmpi .ne v16 c0_i32_7
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x4096_S64x1x4096 : S64x4096.ShapeCasts S64x1x4096
  iota_S512x2048_d0_w32 : S512x2048.Iotas .tc 32 [0]
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  natLt_1_32 : 1 < 32
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S64x1x4096.size a
  hwx0_0 : ∀ i : grid0.Coords, EltTy.bits .i32 = 32 ∨ (Rect.block (s := S64x1x4096) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x4096x128.size a
  hwx0_1 : ∀ i : grid0.Coords, EltTy.bits .f32 = 32 ∨ (Rect.block (s := S64x4096x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S64x512x128.size a
  hwx0_2 : ∀ i : grid0.Coords, EltTy.bits .f32 = 32 ∨ (Rect.block (s := S64x512x128) S1x512x128.size (cc0_transform_2 i) (hinb0_2 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S64x4096x128 : Shape := ⟨3, ![64, 4096, 128]⟩
abbrev S64x4096 : Shape := ⟨2, ![64, 4096]⟩
abbrev S64x512x128 : Shape := ⟨3, ![64, 512, 128]⟩
abbrev S64 : Shape := ⟨1, ![64]⟩
abbrev S64x1 : Shape := ⟨2, ![64, 1]⟩
abbrev S_ : Shape := ⟨0, ![]⟩
abbrev S262144 : Shape := ⟨1, ![262144]⟩
abbrev S262144x128 : Shape := ⟨2, ![262144, 128]⟩
abbrev S32768x128 : Shape := ⟨2, ![32768, 128]⟩
abbrev S262144x1 : Shape := ⟨2, ![262144, 1]⟩

abbrev nBuf : Space → Nat
  | .hbm => 17
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x4096, .i32⟩
  | .hbm, ⟨2, _⟩ => ⟨S64x512x128, .f32⟩
  | .hbm, ⟨3, _⟩ => ⟨S64, .i32⟩
  | .hbm, ⟨4, _⟩ => ⟨S64x1, .i32⟩
  | .hbm, ⟨5, _⟩ => ⟨S_, .i32⟩
  | .hbm, ⟨6, _⟩ => ⟨S64x1, .i32⟩
  | .hbm, ⟨7, _⟩ => ⟨S64x1, .i32⟩
  | .hbm, ⟨8, _⟩ => ⟨S64x4096, .i32⟩
  | .hbm, ⟨9, _⟩ => ⟨S64x4096, .i32⟩
  | .hbm, ⟨10, _⟩ => ⟨S262144, .i32⟩
  | .hbm, ⟨11, _⟩ => ⟨S262144x128, .f32⟩
  | .hbm, ⟨12, _⟩ => ⟨S_, .f32⟩
  | .hbm, ⟨13, _⟩ => ⟨S32768x128, .f32⟩
  | .hbm, ⟨14, _⟩ => ⟨S262144x1, .i32⟩
  | .hbm, ⟨15, _⟩ => ⟨S32768x128, .f32⟩
  | .hbm, ⟨16, _⟩ => ⟨S64x512x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  bcast_S64x1_S64x4096_0_1 : S64x1.BroadcastsInDim S64x4096 (![0, 1] : Fin 2 → Fin S64x4096.rank)
  shapeCasts_S64x4096_S262144 : S64x4096.ShapeCasts S262144
  shapeCasts_S64x4096x128_S262144x128 : S64x4096x128.ShapeCasts S262144x128
  bcast_S_S32768x128 : S_.BroadcastsInDim S32768x128 (![] : Fin 0 → Fin S32768x128.rank)
  bcast_S262144_S262144x1_0 : S262144.BroadcastsInDim S262144x1 (![0] : Fin 1 → Fin S262144x1.rank)
  shapeCasts_S32768x128_S64x512x128 : S32768x128.ShapeCasts S64x512x128
  scatter_S32768x128_S262144x1_S262144x128_1_0_0_1_wf : ScatterDims.WF S32768x128 S262144x1 S262144x128 [1] [0] [0] 1

variable [Facts₀]

def scatter_S32768x128_S262144x1_S262144x128_1_0_0_1 : ScatterDims S32768x128 S262144x1 S262144x128 where
  updateWindowDims := [1]
  insertedWindowDims := [0]
  scatterDimsToOperandDims := [0]
  indexVectorDim := 1
  wf := scatter_S32768x128_S262144x1_S262144x128_1_0_0_1_wf

class Facts : Prop extends Facts₀ where

variable [Facts]
-- ==== Proof.BitsBody.lean ====
/-
  The kernel body at one grid point, as two Hoare triples over whole staging memrefs.

  A grid point is a pair (batch b, chunk k) with k ∈ {0, 1}. At k = 0 the body overwrites the output block
  with the chunk's contribution (the one-hot matrix of the chunk's targets times its message block); at
  k = 1 it reads the block back, adds the chunk's contribution and stores the sum. The two triples name
  what the output's staging buffer holds afterwards: the store's payload, as a function of the two input
  blocks and, at k = 1, of what the buffer held.
-/
import proofs.«416885_j88579405512820_3_alg».proof.Proof.Gen.Kernel.Frame
import proofs.«416885_j88579405512820_3_alg».proof.Proof.Gen.Kernel.Skeleton
import Idealize.ShloMosaic.Lib.Pipeline.Value

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 rectangle, however spelt. -/
theorem off3_zero : (![0, 0, 0] : Fin 3 → Nat) = fun _ => 0 := funext fun a => by fin_cases a <;> rfl

/-- One whole-block store over anything reads back as its payload. -/
theorem read_store_whole (arg4 : Memref sig .tc .vmem S1x512x128 .f32)
    (f : arg4.view.ty.Contents (Elt F)) (w : Vec F S1x512x128 .f32) :
    arg4.view.read (Elt F) (arg4.view.writes (Elt F) f
      [(⟨Rect.unit (s := S1x512x128) ![0, 0, 0] S1x512x128.size inb_S1x512x128_S1x512x128_0_0_0, w⟩ : View.Piece (Elt F) S1x512x128 .f32)]) = w := by
  rw [View.read_writes_eq_canon _ _ _ (fun y => ⟨_, List.mem_singleton_self _,
    View.mem_set_unit_zero off3_zero inb_S1x512x128_S1x512x128_0_0_0 y⟩)]
  exact View.canon_unit_zero off3_zero _ w

/-- A whole-block load of a whole memref reads its contents: the target block, -/
theorem load_tgt (arg2 : Memref sig .tc .vmem S1x1x2048 .i32) (harg2 : arg2.IsWhole) (x0 : Vec F S1x1x2048 .i32) :
    View.readAt (Elt F) arg2.view (Rect.unit (s := S1x1x2048) ![0, 0, 0] S1x1x2048.size inb_S1x1x2048_S1x1x2048_0_0_0).toLoadRect (harg2.unread x0) = x0 := by
  rw [View.readAt_eq_ld, harg2.read_unread]; exact View.ld_unit_zero off3_zero _ x0

/-- the message block, -/
theorem load_msg (arg3 : Memref sig .tc .vmem S1x2048x128 .f32) (harg3 : arg3.IsWhole) (x1 : Vec F S1x2048x128 .f32) :
    View.readAt (Elt F) arg3.view (Rect.unit (s := S1x2048x128) ![0, 0, 0] S1x2048x128.size inb_S1x2048x128_S1x2048x128_0_0_0).toLoadRect (harg3.unread x1) = x1 := by
  rw [View.readAt_eq_ld, harg3.read_unread]; exact View.ld_unit_zero off3_zero _ x1

/-- and the output block as the point before left it. -/
theorem load_out (arg4 : Memref sig .tc .vmem S1x512x128 .f32) (harg4 : arg4.IsWhole) (xo : Vec F S1x512x128 .f32) :
    View.readAt (Elt F) arg4.view (Rect.unit (s := S1x512x128) ![0, 0, 0] S1x512x128.size inb_S1x512x128_S1x512x128_0_0_0).toLoadRect (harg4.unread xo) = xo := by
  rw [View.readAt_eq_ld, harg4.read_unread]; exact View.ld_unit_zero off3_zero _ xo

set_option maxHeartbeats 1000000 in
/-- Chunk 0 of a batch: whatever the output's staging buffer held, it ends at the chunk's contribution. -/
theorem run_first (c : Dev nD) (i : grid0.Coords) (arg2 : Memref sig .tc .vmem S1x1x2048 .i32) (harg2 : arg2.IsWhole)
    (arg3 : Memref sig .tc .vmem S1x2048x128 .f32) (harg3 : arg3.IsWhole) (arg4 : Memref sig .tc .vmem S1x512x128 .f32) (harg4 : arg4.IsWhole)
    (hc0 : k0_cond1 i = 1#1) (hc1 : ¬k0_cond2 i = 1#1)
    (x0 : Vec F S1x1x2048 .i32) (x1 : Vec F S1x2048x128 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ owns (c : Thread nD τ) arg4 fullShare (k0_pay2 x0 x1)) -∗ K ⟨⟩))
          ⊢ wp frame (wpE (defs₀ (F := F)) Variants.none c none) E (cc0__segment_sum_kernel i arg2 harg2 arg3 harg3 arg4 harg4) K := by
    intro E K
    simp only [cc0__segment_sum_kernel_eq_skeleton]; unfold cc0__segment_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    rw [read_store_whole, load_tgt, load_msg]

set_option maxHeartbeats 1000000 in
/-- Chunk 1 of a batch: the output's staging buffer, found at `xo`, ends at `xo` plus the chunk's contribution. -/
theorem run_later (c : Dev nD) (i : grid0.Coords) (arg2 : Memref sig .tc .vmem S1x1x2048 .i32) (harg2 : arg2.IsWhole)
    (arg3 : Memref sig .tc .vmem S1x2048x128 .f32) (harg3 : arg3.IsWhole) (arg4 : Memref sig .tc .vmem S1x512x128 .f32) (harg4 : arg4.IsWhole)
    (hc0 : ¬k0_cond1 i = 1#1) (hc1 : k0_cond2 i = 1#1)
    (x0 : Vec F S1x1x2048 .i32) (x1 : Vec F S1x2048x128 .f32) (xo : Vec F S1x512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ owns (c : Thread nD τ) arg4 fullShare (k0_pay3 x0 x1 xo)) -∗ K ⟨⟩))
          ⊢ wp frame (wpE (defs₀ (F := F)) Variants.none c none) E (cc0__segment_sum_kernel i arg2 harg2 arg3 harg3 arg4 harg4) K := by
    intro E K
    simp only [cc0__segment_sum_kernel_eq_skeleton]; unfold cc0__segment_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    rw [read_store_whole, load_tgt, load_msg, load_out]

end Cert.Kernel.Seg

end
-- ==== Proof.BitsFrame.lean ====
/-
  The frame of the segment-sum program, with the output block NAMED at every grid point.

  The grid is 64 batches × 2 chunks, point t = 2·b + k. At an even point (k = 0) the body overwrites the output's
  staging buffer with the chunk's contribution; at an odd point (k = 1) the buffer still holds what the even
  point before left (the block index depends on b only, and the block is written back at odd points only),
  and the body adds the second chunk's contribution to it. So after point t the buffer holds
      contribution(t)                         (t even)
      contribution(t − 1) + contribution(t)   (t odd)
  and the blocks written back are those of the odd points, one per batch.
-/
import proofs.«416885_j88579405512820_3_alg».proof.Proof.BitsBody

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The first conditional (chunk 0) is taken exactly at the even points, -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second (chunk 1) exactly at the odd ones. -/
theorem later_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-- No window is idle anywhere: the inputs are read at every point, -/
theorem live_tgt : ∀ t : Fin cfg0.N, cfg0.idle 0 (grid0.coords t) = false := by decide +kernel
theorem live_msg : ∀ t : Fin cfg0.N, cfg0.idle 1 (grid0.coords t) = false := by decide +kernel
/-- and the output is stored at every point, since the chunk coordinate is 0 or positive. -/
theorem live_out (i : grid0.Coords) : cfg0.idle 2 i = false := by
  have h : ∀ k : Fin 2,
      (!(Scalar.cmpi .ne (Scalar.extui (Scalar.cmpi .eq (BitVec.ofNat 32 k.val) 0#32) : BitVec 32) 0#32 == 1#1)
        && !(Scalar.cmpi .ne (Scalar.extui (Scalar.cmpi .sgt (BitVec.ofNat 32 k.val) 0#32) : BitVec 32) 0#32 == 1#1)) = false := by decide
  exact h (i 1)

/-! ## The staging memrefs and the blocks at a point -/

abbrev tgtRef (t : Fin cfg0.N) : Memref sig .tc .vmem S1x1x2048 .i32 := win0_0.stage (cfg0.slots t 0)
abbrev tgtWhole (t : Fin cfg0.N) : (tgtRef t).IsWhole := hstage0_0 ((cfg0.slots t 0).cast nbuf0_0)
abbrev msgRef (t : Fin cfg0.N) : Memref sig .tc .vmem S1x2048x128 .f32 := win0_1.stage (cfg0.slots t 1)
abbrev msgWhole (t : Fin cfg0.N) : (msgRef t).IsWhole := hstage0_1 ((cfg0.slots t 1).cast nbuf0_1)
abbrev outRef (t : Fin cfg0.N) : Memref sig .tc .vmem S1x512x128 .f32 := win0_2.stage (cfg0.slots t 2)
abbrev outWhole (t : Fin cfg0.N) : (outRef t).IsWhole := hstage0_2 ((cfg0.slots t 2).cast nbuf0_2)

/-- The target block and the message block of point `t`, at their literal types. -/
abbrev tgtBlk (c : Dev nD) (t : Fin cfg0.N) : Vec F S1x1x2048 .i32 := iblk m c 0 t
abbrev msgBlk (c : Dev nD) (t : Fin cfg0.N) : Vec F S1x2048x128 .f32 := iblk m c 1 t

/-- The point before. -/
abbrev prev (t : Fin cfg0.N) : Fin cfg0.N := ⟨t.val - 1, Nat.lt_of_le_of_lt (Nat.sub_le _ _) t.isLt⟩

/-- What the output's staging buffer holds after the body at point `t`. -/
def outAt (c : Dev nD) (t : Fin cfg0.N) : Vec F S1x512x128 .f32 :=
  if t.val % 2 = 0 then k0_pay2 (tgtBlk m c t) (msgBlk m c t)
  else k0_pay3 (tgtBlk m c t) (msgBlk m c t) (k0_pay2 (tgtBlk m c (prev t)) (msgBlk m c (prev t)))

theorem outAt_even (c : Dev nD) (t : Fin cfg0.N) (h : t.val % 2 = 0) :
    outAt m c t = k0_pay2 (tgtBlk m c t) (msgBlk m c t) := if_pos h

theorem outAt_odd (c : Dev nD) (t : Fin cfg0.N) (h : ¬t.val % 2 = 0) :
    outAt m c t = k0_pay3 (tgtBlk m c t) (msgBlk m c t) (k0_pay2 (tgtBlk m c (prev t)) (msgBlk m c (prev t))) := if_neg h

/-! ## The pipeline's proof data -/

/-- The arrays as the region finds them; after the body each input's buffer at its block and the output's at `outAt`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tgt (c : Dev nD) (t : Fin cfg0.N) : (dats m 0 c).after 0 t = iblk m c 0 t := by dsimp only [dats]
theorem after_msg (c : Dev nD) (t : Fin cfg0.N) : (dats m 0 c).after 1 t = iblk m c 1 t := by dsimp only [dats]
theorem after_out (c : Dev nD) (t : Fin cfg0.N) : (dats m 0 c).after 2 t = outAt m c t := by dsimp only [dats]

/-- Each input's current staging buffer holds its block at every point. -/
theorem before_tgt (c : Dev nD) (t : Fin cfg0.N) (d) : (dats m 0 c).before 0 t d = iblk m c 0 t :=
  before0_0_of m (dats m 0 c) (A_eq m c 0) (after_tgt m c) t d
theorem before_msg (c : Dev nD) (t : Fin cfg0.N) (d) : (dats m 0 c).before 1 t d = iblk m c 1 t :=
  before0_1_of m (dats m 0 c) (A_eq m c 1) (after_msg m c) t d

/-- At an odd point the output's current staging buffer holds what the even point before left: the point is not the
    first, the buffer was not written back between (only odd points write back), the window is live and uncut. -/
theorem before_out_odd (c : Dev nD) (t : Fin cfg0.N) (h : ¬t.val % 2 = 0) (d) :
    (dats m 0 c).before 2 t d = outAt m c (prev t) := by
  have hN : t.val < 128 := lt_of_lt_of_eq t.isLt (show cfg0.N = 128 from N_0)
  rw [Dat.before_out_kept _ 2 rfl t (by omega) (Bool.eq_false_iff.mpr fun h' => by have := (flush0_2 _).mp h'; dsimp only at this; omega)
    live_out (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (tgtRef t) fullShare ((dats m 0 c).before 0 t d))
    ∗ (∃ d, owns (c : Thread nD τ) (msgRef t) fullShare ((dats m 0 c).before 1 t d))
    ∗ (∃ d, owns (c : Thread nD τ) (outRef t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; an even point runs the overwriting case from
    whatever the output's buffer holds, an odd point the accumulating case from what the even point left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tgt, before_msg]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (tgtRef t) fullShare ((dats m 0 c).after 0 t) from by
    unfold Dat.leavesExact; rw [live_tgt t], after_tgt]
  rw [show (dats m 0 c).leavesExact 1 t = owns (c : Thread nD τ) (msgRef t) fullShare ((dats m 0 c).after 1 t) from by
    unfold Dat.leavesExact; rw [live_msg t], after_msg]
  rw [show (dats m 0 c).leavesExact 2 t = owns (c : Thread nD τ) (outRef t) fullShare ((dats m 0 c).after 2 t) from by
    unfold Dat.leavesExact; rw [live_out (grid0.coords t)], after_out]
  have hN : t.val < 128 := lt_of_lt_of_eq t.isLt (show cfg0.N = 128 from N_0)
  by_cases h0 : t.val % 2 = 0
  · rw [outAt_even m c t h0]
    iintro ⟨HΦ, Ho, ⟨%d0, H0⟩, ⟨%d1, H1⟩, ⟨%d2, H2⟩⟩
    iapply ((run_first c (grid0.coords t) (tgtRef t) (tgtWhole t) (msgRef t) (msgWhole t) (outRef t) (outWhole t)
      ((first_iff t).mpr h0) (fun h => by have := (later_iff t).mp h; omega) (tgtBlk m c t) (msgBlk m c t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outAt_odd m c t h0]
    simp only [before_out_odd m c t h0]
    rw [outAt_even m c (prev t) (by show (t.val - 1) % 2 = 0; omega)]
    iintro ⟨HΦ, Ho, ⟨%d0, H0⟩, ⟨%d1, H1⟩, ⟨%d2, H2⟩⟩
    iapply ((run_later c (grid0.coords t) (tgtRef t) (tgtWhole t) (msgRef t) (msgWhole t) (outRef t) (outWhole t)
      (fun h => h0 ((first_iff t).mp h)) ((later_iff t).mpr (by omega)) (tgtBlk m c t) (msgBlk m c t)
      (k0_pay2 (tgtBlk m c (prev t)) (msgBlk m c (prev t)))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data (the output: its entry contents overwritten by the odd points' blocks)
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Seg

end
-- ==== Proof.IdealBody.lean ====
/-
  The kernel body at one grid point, as two Hoare triples over whole staging memrefs.

  A grid point is a pair (batch b, chunk k) with k ∈ {0, 1}. At k = 0 the body overwrites the output block
  with the chunk's contribution (the one-hot matrix of the chunk's targets times its message block); at
  k = 1 it reads the block back, adds the chunk's contribution and stores the sum. The two triples name
  what the output's staging buffer holds afterwards: the store's payload, as a function of the two input
  blocks and, at k = 1, of what the buffer held.
-/
import proofs.«416885_j88579405512820_3_alg».proof.Proof.Gen.KernelIdeal.Frame
import proofs.«416885_j88579405512820_3_alg».proof.Proof.Gen.KernelIdeal.Skeleton
import Idealize.ShloMosaic.Lib.Pipeline.Value

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 rectangle, however spelt. -/
theorem off3_zero : (![0, 0, 0] : Fin 3 → Nat) = fun _ => 0 := funext fun a => by fin_cases a <;> rfl

/-- One whole-block store over anything reads back as its payload. -/
theorem read_store_whole (arg4 : Memref sig .tc .vmem S1x512x128 .f32)
    (f : arg4.view.ty.Contents (Elt F)) (w : Vec F S1x512x128 .f32) :
    arg4.view.read (Elt F) (arg4.view.writes (Elt F) f
      [(⟨Rect.unit (s := S1x512x128) ![0, 0, 0] S1x512x128.size inb_S1x512x128_S1x512x128_0_0_0, w⟩ : View.Piece (Elt F) S1x512x128 .f32)]) = w := by
  rw [View.read_writes_eq_canon _ _ _ (fun y => ⟨_, List.mem_singleton_self _,
    View.mem_set_unit_zero off3_zero inb_S1x512x128_S1x512x128_0_0_0 y⟩)]
  exact View.canon_unit_zero off3_zero _ w

/-- A whole-block load of a whole memref reads its contents: the target block, -/
theorem load_tgt (arg2 : Memref sig .tc .vmem S1x1x2048 .i32) (harg2 : arg2.IsWhole) (x0 : Vec F S1x1x2048 .i32) :
    View.readAt (Elt F) arg2.view (Rect.unit (s := S1x1x2048) ![0, 0, 0] S1x1x2048.size inb_S1x1x2048_S1x1x2048_0_0_0).toLoadRect (harg2.unread x0) = x0 := by
  rw [View.readAt_eq_ld, harg2.read_unread]; exact View.ld_unit_zero off3_zero _ x0

/-- the message block, -/
theorem load_msg (arg3 : Memref sig .tc .vmem S1x2048x128 .f32) (harg3 : arg3.IsWhole) (x1 : Vec F S1x2048x128 .f32) :
    View.readAt (Elt F) arg3.view (Rect.unit (s := S1x2048x128) ![0, 0, 0] S1x2048x128.size inb_S1x2048x128_S1x2048x128_0_0_0).toLoadRect (harg3.unread x1) = x1 := by
  rw [View.readAt_eq_ld, harg3.read_unread]; exact View.ld_unit_zero off3_zero _ x1

/-- and the output block as the point before left it. -/
theorem load_out (arg4 : Memref sig .tc .vmem S1x512x128 .f32) (harg4 : arg4.IsWhole) (xo : Vec F S1x512x128 .f32) :
    View.readAt (Elt F) arg4.view (Rect.unit (s := S1x512x128) ![0, 0, 0] S1x512x128.size inb_S1x512x128_S1x512x128_0_0_0).toLoadRect (harg4.unread xo) = xo := by
  rw [View.readAt_eq_ld, harg4.read_unread]; exact View.ld_unit_zero off3_zero _ xo

set_option maxHeartbeats 1000000 in
/-- Chunk 0 of a batch: whatever the output's staging buffer held, it ends at the chunk's contribution. -/
theorem run_first (c : Dev nD) (i : grid0.Coords) (arg2 : Memref sig .tc .vmem S1x1x2048 .i32) (harg2 : arg2.IsWhole)
    (arg3 : Memref sig .tc .vmem S1x2048x128 .f32) (harg3 : arg3.IsWhole) (arg4 : Memref sig .tc .vmem S1x512x128 .f32) (harg4 : arg4.IsWhole)
    (hc0 : k0_cond1 i = 1#1) (hc1 : ¬k0_cond2 i = 1#1)
    (x0 : Vec F S1x1x2048 .i32) (x1 : Vec F S1x2048x128 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ owns (c : Thread nD τ) arg4 fullShare (k0_pay2 x0 x1)) -∗ K ⟨⟩))
          ⊢ wp frame (wpE (defs₀ (F := F)) Variants.none c none) E (cc0__segment_sum_kernel i arg2 harg2 arg3 harg3 arg4 harg4) K := by
    intro E K
    simp only [cc0__segment_sum_kernel_eq_skeleton]; unfold cc0__segment_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    rw [read_store_whole, load_tgt, load_msg]

set_option maxHeartbeats 1000000 in
/-- Chunk 1 of a batch: the output's staging buffer, found at `xo`, ends at `xo` plus the chunk's contribution. -/
theorem run_later (c : Dev nD) (i : grid0.Coords) (arg2 : Memref sig .tc .vmem S1x1x2048 .i32) (harg2 : arg2.IsWhole)
    (arg3 : Memref sig .tc .vmem S1x2048x128 .f32) (harg3 : arg3.IsWhole) (arg4 : Memref sig .tc .vmem S1x512x128 .f32) (harg4 : arg4.IsWhole)
    (hc0 : ¬k0_cond1 i = 1#1) (hc1 : k0_cond2 i = 1#1)
    (x0 : Vec F S1x1x2048 .i32) (x1 : Vec F S1x2048x128 .f32) (xo : Vec F S1x512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ owns (c : Thread nD τ) arg4 fullShare (k0_pay3 x0 x1 xo)) -∗ K ⟨⟩))
          ⊢ wp frame (wpE (defs₀ (F := F)) Variants.none c none) E (cc0__segment_sum_kernel i arg2 harg2 arg3 harg3 arg4 harg4) K := by
    intro E K
    simp only [cc0__segment_sum_kernel_eq_skeleton]; unfold cc0__segment_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    rw [read_store_whole, load_tgt, load_msg, load_out]

end Cert.KernelIdeal.Seg

end
-- ==== Proof.IdealFrame.lean ====
/-
  The frame of the segment-sum program, with the output block NAMED at every grid point.

  The grid is 64 batches × 2 chunks, point t = 2·b + k. At an even point (k = 0) the body overwrites the output's
  staging buffer with the chunk's contribution; at an odd point (k = 1) the buffer still holds what the even
  point before left (the block index depends on b only, and the block is written back at odd points only),
  and the body adds the second chunk's contribution to it. So after point t the buffer holds
      contribution(t)                         (t even)
      contribution(t − 1) + contribution(t)   (t odd)
  and the blocks written back are those of the odd points, one per batch.
-/
import proofs.«416885_j88579405512820_3_alg».proof.Proof.IdealBody

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The first conditional (chunk 0) is taken exactly at the even points, -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second (chunk 1) exactly at the odd ones. -/
theorem later_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-- No window is idle anywhere: the inputs are read at every point, -/
theorem live_tgt : ∀ t : Fin cfg0.N, cfg0.idle 0 (grid0.coords t) = false := by decide +kernel
theorem live_msg : ∀ t : Fin cfg0.N, cfg0.idle 1 (grid0.coords t) = false := by decide +kernel
/-- and the output is stored at every point, since the chunk coordinate is 0 or positive. -/
theorem live_out (i : grid0.Coords) : cfg0.idle 2 i = false := by
  have h : ∀ k : Fin 2,
      (!(Scalar.cmpi .ne (Scalar.extui (Scalar.cmpi .eq (BitVec.ofNat 32 k.val) 0#32) : BitVec 32) 0#32 == 1#1)
        && !(Scalar.cmpi .ne (Scalar.extui (Scalar.cmpi .sgt (BitVec.ofNat 32 k.val) 0#32) : BitVec 32) 0#32 == 1#1)) = false := by decide
  exact h (i 1)

/-! ## The staging memrefs and the blocks at a point -/

abbrev tgtRef (t : Fin cfg0.N) : Memref sig .tc .vmem S1x1x2048 .i32 := win0_0.stage (cfg0.slots t 0)
abbrev tgtWhole (t : Fin cfg0.N) : (tgtRef t).IsWhole := hstage0_0 ((cfg0.slots t 0).cast nbuf0_0)
abbrev msgRef (t : Fin cfg0.N) : Memref sig .tc .vmem S1x2048x128 .f32 := win0_1.stage (cfg0.slots t 1)
abbrev msgWhole (t : Fin cfg0.N) : (msgRef t).IsWhole := hstage0_1 ((cfg0.slots t 1).cast nbuf0_1)
abbrev outRef (t : Fin cfg0.N) : Memref sig .tc .vmem S1x512x128 .f32 := win0_2.stage (cfg0.slots t 2)
abbrev outWhole (t : Fin cfg0.N) : (outRef t).IsWhole := hstage0_2 ((cfg0.slots t 2).cast nbuf0_2)

/-- The target block and the message block of point `t`, at their literal types. -/
abbrev tgtBlk (c : Dev nD) (t : Fin cfg0.N) : Vec F S1x1x2048 .i32 := iblk m c 0 t
abbrev msgBlk (c : Dev nD) (t : Fin cfg0.N) : Vec F S1x2048x128 .f32 := iblk m c 1 t

/-- The point before. -/
abbrev prev (t : Fin cfg0.N) : Fin cfg0.N := ⟨t.val - 1, Nat.lt_of_le_of_lt (Nat.sub_le _ _) t.isLt⟩

/-- What the output's staging buffer holds after the body at point `t`. -/
def outAt (c : Dev nD) (t : Fin cfg0.N) : Vec F S1x512x128 .f32 :=
  if t.val % 2 = 0 then k0_pay2 (tgtBlk m c t) (msgBlk m c t)
  else k0_pay3 (tgtBlk m c t) (msgBlk m c t) (k0_pay2 (tgtBlk m c (prev t)) (msgBlk m c (prev t)))

theorem outAt_even (c : Dev nD) (t : Fin cfg0.N) (h : t.val % 2 = 0) :
    outAt m c t = k0_pay2 (tgtBlk m c t) (msgBlk m c t) := if_pos h

theorem outAt_odd (c : Dev nD) (t : Fin cfg0.N) (h : ¬t.val % 2 = 0) :
    outAt m c t = k0_pay3 (tgtBlk m c t) (msgBlk m c t) (k0_pay2 (tgtBlk m c (prev t)) (msgBlk m c (prev t))) := if_neg h

/-! ## The pipeline's proof data -/

/-- The arrays as the region finds them; after the body each input's buffer at its block and the output's at `outAt`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tgt (c : Dev nD) (t : Fin cfg0.N) : (dats m 0 c).after 0 t = iblk m c 0 t := by dsimp only [dats]
theorem after_msg (c : Dev nD) (t : Fin cfg0.N) : (dats m 0 c).after 1 t = iblk m c 1 t := by dsimp only [dats]
theorem after_out (c : Dev nD) (t : Fin cfg0.N) : (dats m 0 c).after 2 t = outAt m c t := by dsimp only [dats]

/-- Each input's current staging buffer holds its block at every point. -/
theorem before_tgt (c : Dev nD) (t : Fin cfg0.N) (d) : (dats m 0 c).before 0 t d = iblk m c 0 t :=
  before0_0_of m (dats m 0 c) (A_eq m c 0) (after_tgt m c) t d
theorem before_msg (c : Dev nD) (t : Fin cfg0.N) (d) : (dats m 0 c).before 1 t d = iblk m c 1 t :=
  before0_1_of m (dats m 0 c) (A_eq m c 1) (after_msg m c) t d

/-- At an odd point the output's current staging buffer holds what the even point before left: the point is not the
    first, the buffer was not written back between (only odd points write back), the window is live and uncut. -/
theorem before_out_odd (c : Dev nD) (t : Fin cfg0.N) (h : ¬t.val % 2 = 0) (d) :
    (dats m 0 c).before 2 t d = outAt m c (prev t) := by
  have hN : t.val < 128 := lt_of_lt_of_eq t.isLt (show cfg0.N = 128 from N_0)
  rw [Dat.before_out_kept _ 2 rfl t (by omega) (Bool.eq_false_iff.mpr fun h' => by have := (flush0_2 _).mp h'; dsimp only at this; omega)
    live_out (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (tgtRef t) fullShare ((dats m 0 c).before 0 t d))
    ∗ (∃ d, owns (c : Thread nD τ) (msgRef t) fullShare ((dats m 0 c).before 1 t d))
    ∗ (∃ d, owns (c : Thread nD τ) (outRef t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; an even point runs the overwriting case from
    whatever the output's buffer holds, an odd point the accumulating case from what the even point left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tgt, before_msg]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (tgtRef t) fullShare ((dats m 0 c).after 0 t) from by
    unfold Dat.leavesExact; rw [live_tgt t], after_tgt]
  rw [show (dats m 0 c).leavesExact 1 t = owns (c : Thread nD τ) (msgRef t) fullShare ((dats m 0 c).after 1 t) from by
    unfold Dat.leavesExact; rw [live_msg t], after_msg]
  rw [show (dats m 0 c).leavesExact 2 t = owns (c : Thread nD τ) (outRef t) fullShare ((dats m 0 c).after 2 t) from by
    unfold Dat.leavesExact; rw [live_out (grid0.coords t)], after_out]
  have hN : t.val < 128 := lt_of_lt_of_eq t.isLt (show cfg0.N = 128 from N_0)
  by_cases h0 : t.val % 2 = 0
  · rw [outAt_even m c t h0]
    iintro ⟨HΦ, Ho, ⟨%d0, H0⟩, ⟨%d1, H1⟩, ⟨%d2, H2⟩⟩
    iapply ((run_first c (grid0.coords t) (tgtRef t) (tgtWhole t) (msgRef t) (msgWhole t) (outRef t) (outWhole t)
      ((first_iff t).mpr h0) (fun h => by have := (later_iff t).mp h; omega) (tgtBlk m c t) (msgBlk m c t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outAt_odd m c t h0]
    simp only [before_out_odd m c t h0]
    rw [outAt_even m c (prev t) (by show (t.val - 1) % 2 = 0; omega)]
    iintro ⟨HΦ, Ho, ⟨%d0, H0⟩, ⟨%d1, H1⟩, ⟨%d2, H2⟩⟩
    iapply ((run_later c (grid0.coords t) (tgtRef t) (tgtWhole t) (msgRef t) (msgWhole t) (outRef t) (outWhole t)
      (fun h => h0 ((first_iff t).mp h)) ((later_iff t).mpr (by omega)) (tgtBlk m c t) (msgBlk m c t)
      (k0_pay2 (tgtBlk m c (prev t)) (msgBlk m c (prev t)))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data (the output: its entry contents overwritten by the odd points' blocks)
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Seg

end
-- ==== Proof.SegmentSum.lean ====
/-
  The segment sum as ONE function of the argument arrays, index by index, over the extended reals.

  For a batch b, a node n and a feature d, entry (b, n, d) of the result is the sum of the messages
  msg[b, e, d] over the edges e of batch b whose target index tgt[b, e] is n. Both programs compute it:
  the reference by a scatter-add of every message row onto row b·512 + tgt[b, e] of a zero array, the
  kernel by multiplying the one-hot matrix of the targets with the messages, half of the edges at a time
  (`segSumAt_split`: the sum over the 4096 edges is the sum over the first 2048 plus the sum over the last
  2048). A one-hot entry is the word 1 or 0 read as a number, and its product with a message is the message
  or zero on every extended real (`onehot_word`, `onehot_mul`): no finiteness is needed anywhere.
-/
import Idealize.ShloMosaic.PureOps.Ideal
import Idealize.ShloMosaic.Lib.ValueIdx

noncomputable section

open scoped BigOperators

namespace Cert.SegmentSum

open Idealize.ShloMosaic Idealize.ShloMosaic.ValueIdx

abbrev SMsg : Shape := ⟨3, ![64, 4096, 128]⟩
abbrev STgt : Shape := ⟨2, ![64, 4096]⟩
abbrev SOut : Shape := ⟨3, ![64, 512, 128]⟩

/-- Entry (b, n, d) of the segment sum: the messages of batch `b` whose target is node `n`, summed, at feature `d`. -/
def segSumAt (msg : SMsg.Idx → EReal) (tgt : STgt.Idx → BitVec 32) (b : Fin 64) (n : Fin 512) (d : Fin 128) : EReal :=
  ∑ e : Fin 4096, if tgt (ix2 b e) = BitVec.ofNat 32 n.val then msg (ix3 b e d) else 0

/-- The whole result array. -/
def segSum (msg : SMsg.Idx → EReal) (tgt : STgt.Idx → BitVec 32) : SOut.Idx → EReal :=
  fun i => segSumAt msg tgt (i 0) (i 1) (i 2)

theorem segSum_ix3 (msg : SMsg.Idx → EReal) (tgt : STgt.Idx → BitVec 32) (b : Fin 64) (n : Fin 512) (d : Fin 128) :
    segSum msg tgt (ix3 b n d) = segSumAt msg tgt b n d := rfl

/-- Edge `k` of chunk `j`: the edges are cut into two chunks of 2048. -/
def chunkIdx (j : Fin 2) (k : Fin 2048) : Fin 4096 :=
  ⟨j.val * 2048 + k.val, by have := j.isLt; have := k.isLt; omega⟩

/-- Chunk `j`'s share of entry (b, n, d). -/
def chunkSum (msg : SMsg.Idx → EReal) (tgt : STgt.Idx → BitVec 32) (b : Fin 64) (n : Fin 512) (d : Fin 128) (j : Fin 2) : EReal :=
  ∑ k : Fin 2048, if tgt (ix2 b (chunkIdx j k)) = BitVec.ofNat 32 n.val then msg (ix3 b (chunkIdx j k) d) else 0

/-- The sum over all edges is the first chunk's share plus the second's. -/
theorem segSumAt_split (msg : SMsg.Idx → EReal) (tgt : STgt.Idx → BitVec 32) (b : Fin 64) (n : Fin 512) (d : Fin 128) :
    segSumAt msg tgt b n d = chunkSum msg tgt b n d 0 + chunkSum msg tgt b n d 1 := by
  unfold segSumAt chunkSum
  have h := Fin.sum_univ_add (a := 2048) (b := 2048)
    (fun e : Fin (2048 + 2048) => if tgt (ix2 b e) = BitVec.ofNat 32 n.val then msg (ix3 b e d) else 0)
  refine h.trans ?_
  have e0 : ∀ k : Fin 2048, (Fin.castAdd 2048 k : Fin (2048 + 2048)) = chunkIdx 0 k := fun k => Fin.ext (by show k.val = 0 * 2048 + k.val; omega)
  have e1 : ∀ k : Fin 2048, (Fin.natAdd 2048 k : Fin (2048 + 2048)) = chunkIdx 1 k := fun k => Fin.ext (by show 2048 + k.val = 1 * 2048 + k.val; omega)
  simp only [e0, e1]

/-- A one-hot entry — the comparison's bit, widened to a word and read as a signed number — is 1 where the two words
    are equal and 0 elsewhere. -/
theorem onehot_word (a b : BitVec 32) :
    ((((BitVec.ofBool (a == b)).setWidth 32).toInt : ℝ) : EReal) = if a = b then 1 else 0 := by
  by_cases h : a = b
  · have hb : (a == b) = true := by simpa using h
    rw [hb, if_pos h, show ((BitVec.ofBool true).setWidth 32).toInt = 1 from by decide]
    norm_num
  · have hb : (a == b) = false := by simpa using h
    rw [hb, if_neg h, show ((BitVec.ofBool false).setWidth 32).toInt = 0 from by decide]
    norm_num

/-- A one-hot entry times a message is the message or zero, at the infinities too. -/
theorem onehot_mul (P : Prop) [Decidable P] (x : EReal) : (if P then (1 : EReal) else 0) * x = if P then x else 0 := by
  split_ifs <;> simp

end Cert.SegmentSum

end
-- ==== Proof.IdealValue.lean ====
/-
  The kernel's result array, index by index: it is the segment sum.

  One grid point's matmul, read at a row p and a column q, is the sum over the chunk's 2048 edges of the message's
  column q where the edge's target is p: the one-hot entry is 1 or 0, the product the message or zero, and the zero
  accumulator adds nothing. Read off the argument arrays, that is one chunk's share of the segment sum's entry
  (batch, p, q). An odd point leaves the even point's contribution plus its own — the two chunks' shares of one
  batch — and writes it back to the batch's block; the odd points' blocks cover the result array.
-/
import proofs.«416885_j88579405512820_3_alg».proof.Proof.IdealFrame
import proofs.«416885_j88579405512820_3_alg».proof.Proof.SegmentSum
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Seg

open Cert.KernelIdeal Cert.KernelIdeal.Gen Cert.SegmentSum
open Idealize.ShloMosaic Idealize.ShloMosaic.TcCoe Idealize.ShloMosaic.ValueIdx Idealize.SL.Sem
open Idealize.ShloMosaic.Pipeline (Dat)

/-! ## The chunk's contribution at an index -/

/-- The matmul's operand indices, axis by axis: the one-hot's row is the output's row, -/
theorem lhs_row (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- its column the contracted edge, -/
theorem lhs_edge (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
/-- the message's row the contracted edge, -/
theorem rhs_edge (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
/-- and its column the output's column. -/
theorem rhs_col (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The chunk's contribution — the one-hot matrix of the chunk's targets times its messages, into zero — at row `p`
    and column `q`: the sum over the chunk's edges whose target is `p` of the message's column `q`. -/
theorem contrib_apply (v1 : Vec Ideal S1x1x2048 .i32) (v8 : Vec Ideal S1x2048x128 .f32) (p : Fin 512) (q : Fin 128) :
    k0_pay1 (F := Ideal) v1 v8 (ix2 p q)
      = ∑ k : Fin 2048, if v1 (ix3 0 0 k) = BitVec.ofNat 32 p.val then v8 (ix3 0 k q) else 0 := by
  unfold k0_pay1
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p q) ((contrEquiv1 dot_S512x2048_S2048x128_S512x128_1_0_0_1_n_n 2048 rfl rfl).symm k) = ix2 p k := funext fun a => Fin.ext (by
    match a with
    | ⟨0, _⟩ => exact lhs_row _ _
    | ⟨1, _⟩ => exact (lhs_edge _ _).trans hk)
  have er : dot_S512x2048_S2048x128_S512x128_1_0_0_1_n_n.rhsIdx (ix2 p q) ((contrEquiv1 dot_S512x2048_S2048x128_S512x128_1_0_0_1_n_n 2048 rfl rfl).symm k) = ix2 k q := funext fun a => Fin.ext (by
    match a with
    | ⟨0, _⟩ => exact (rhs_edge _ _).trans hk
    | ⟨1, _⟩ => exact rhs_col _ _)
  rw [el, er]
  have hb : broadcastTo S512x2048 (shapeCast S1x2048 v1 shapeCasts_S1x1x2048_S1x2048) broadcasts_S1x2048_S512x2048 (ix2 p k) = v1 (ix3 0 0 k) :=
    (broadcastTo_apply _ broadcasts_S1x2048_S512x2048 (ix2 p k) (ix2 (0 : Fin 1) k) (fun a => by
      match a with
      | ⟨0, _⟩ => show (0 : Nat) = if (1 : Nat) = 1 then 0 else p.val; rw [if_pos rfl]
      | ⟨1, _⟩ => show k.val = if (2048 : Nat) = 1 then 0 else k.val; rw [if_neg (by decide)])).trans
    (shapeCast_apply v1 shapeCasts_S1x1x2048_S1x2048 (ix2 (0 : Fin 1) k) (ix3 (0 : Fin 1) (0 : Fin 1) k)
      (by rw [Shape.rowMajor_val_three, Shape.rowMajor_val_two]; show (0 * 1 + 0) * 2048 + k.val = 0 * 2048 + k.val; omega))
  have hr : shapeCast S2048x128 v8 shapeCasts_S1x2048x128_S2048x128 (ix2 k q) = v8 (ix3 0 k q) :=
    shapeCast_apply v8 shapeCasts_S1x2048x128_S2048x128 (ix2 k q) (ix3 (0 : Fin 1) k q)
      (by rw [Shape.rowMajor_val_three, Shape.rowMajor_val_two]; show (0 * 2048 + k.val) * 128 + q.val = k.val * 128 + q.val; omega)
  have hi : iota .tc S512x2048 32 [0] iota_S512x2048_d0_w32 (ix2 p k) = BitVec.ofNat 32 p.val :=
    iota_single_apply .tc S512x2048 32 0 iota_S512x2048_d0_w32 (ix2 p k)
  show ((((BitVec.ofBool (broadcastTo S512x2048 (shapeCast S1x2048 v1 shapeCasts_S1x1x2048_S1x2048) broadcasts_S1x2048_S512x2048 (ix2 p k)
      == iota .tc S512x2048 32 [0] iota_S512x2048_d0_w32 (ix2 p k))).setWidth 32).toInt : ℝ) : EReal)
      * shapeCast S2048x128 v8 shapeCasts_S1x2048x128_S2048x128 (ix2 k q) = _
  rw [hb, hi, hr, onehot_word, onehot_mul]

/-- At an odd point the body's second store, over what the even point left: the two chunks' contributions, added. -/
theorem later_apply (v1 v1' : Vec Ideal S1x1x2048 .i32) (v8 v8' : Vec Ideal S1x2048x128 .f32) (z : Fin 1) (p : Fin 512) (q : Fin 128) :
    k0_pay3 (F := Ideal) v1 v8 (k0_pay2 v1' v8') (ix3 z p q) = k0_pay1 v1' v8' (ix2 p q) + k0_pay1 v1 v8 (ix2 p q) := by
  unfold k0_pay3 k0_pay2
  dsimp only
  rw [shapeCast_shapeCast]
  exact shapeCast_apply (addf (k0_pay1 v1' v8') (k0_pay1 v1 v8)) shapeCasts_S512x128_S1x512x128 (ix3 z p q) (ix2 p q)
    (by rw [Shape.rowMajor_val_two, Shape.rowMajor_val_three]
        show p.val * 128 + q.val = (z.val * 512 + p.val) * 128 + q.val
        have := z.isLt; omega)

/-! ## The blocks, read off the argument arrays -/

variable (m : (ℓ : Loc nD τ sig) → Buf (Elt Ideal) ℓ) (ρ : Dev nD → PrngReg)

/-- The printed index maps, decided over the grid: point t = 2·b + k reads targets and messages of batch b, chunk k,
    and writes the block of batch b. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The batch and the chunk of a grid point. -/
abbrev batchOf (t : Fin cfg0.N) : Fin 64 := ⟨t.val / 2, by have := lt_of_lt_of_eq t.isLt (show cfg0.N = 128 from N_0); omega⟩
abbrev chunkOf (t : Fin cfg0.N) : Fin 2 := ⟨t.val % 2, Nat.mod_lt _ (by decide)⟩

/-- The target array as the region finds it: the host's reshape of the argument to [64, 1, 4096]. -/
theorem tgt_array (c : Dev nD) :
    (V m c main_v0 : S64x1x4096.Idx → BitVec 32)
      = shapeCast S64x1x4096 (m ((c : Thread nD τ).loc main_arg1)) shapeCasts_S64x4096_S64x1x4096 := by
  dsimp only [V, hostOps0]; after_results; rfl

/-- Entry `k` of point `t`'s target block is the target of edge `k` of the point's chunk, in the point's batch. -/
theorem tgt_read (c : Dev nD) (t : Fin cfg0.N) (k : Fin 2048) :
    tgtBlk m c t (ix3 0 0 k)
      = (m ((c : Thread nD τ).loc main_arg1) : S64x4096.Idx → BitVec 32) (ix2 (batchOf t) (chunkIdx (chunkOf t) k)) := by
  obtain ⟨e0, e1, e2, -⟩ := idx_facts t
  have hemb : ((cfg0.win 0).blk t).view.emb (ix3 (0 : Fin 1) (0 : Fin 1) k)
      = (ix3 (batchOf t) (0 : Fin 1) (chunkIdx (chunkOf t) k) : S64x1x4096.Idx) := by
    funext a; apply Fin.ext
    match a with
    | ⟨0, _⟩ => show win0_0.index t (0 : Fin 3) * 1 + 1 * 0 = t.val / 2; omega
    | ⟨1, _⟩ => show win0_0.index t (1 : Fin 3) * 1 + 1 * 0 = 0; omega
    | ⟨2, _⟩ => show win0_0.index t (2 : Fin 3) * 2048 + 1 * k.val = t.val % 2 * 2048 + k.val; omega
  show (V m c main_v0 : S64x1x4096.Idx → BitVec 32) (((cfg0.win 0).blk t).view.emb (ix3 (0 : Fin 1) (0 : Fin 1) k)) = _
  rw [hemb, tgt_array]
  exact shapeCast_apply _ shapeCasts_S64x4096_S64x1x4096 _ (ix2 (batchOf t) (chunkIdx (chunkOf t) k))
    (by rw [Shape.rowMajor_val_two, Shape.rowMajor_val_three]
        show t.val / 2 * 4096 + (t.val % 2 * 2048 + k.val) = (t.val / 2 * 1 + 0) * 4096 + (t.val % 2 * 2048 + k.val)
        omega)

/-- Entry (k, q) of point `t`'s message block is the message of that edge at feature `q`. -/
theorem msg_read (c : Dev nD) (t : Fin cfg0.N) (k : Fin 2048) (q : Fin 128) :
    msgBlk m c t (ix3 0 k q)
      = (m ((c : Thread nD τ).loc main_arg0) : S64x4096x128.Idx → EReal) (ix3 (batchOf t) (chunkIdx (chunkOf t) k) q) := by
  obtain ⟨-, -, -, e3, e4, e5, -⟩ := idx_facts t
  have hemb : ((cfg0.win 1).blk t).view.emb (ix3 (0 : Fin 1) k q)
      = (ix3 (batchOf t) (chunkIdx (chunkOf t) k) q : S64x4096x128.Idx) := by
    funext a; apply Fin.ext
    match a with
    | ⟨0, _⟩ => show win0_1.index t (0 : Fin 3) * 1 + 1 * 0 = t.val / 2; omega
    | ⟨1, _⟩ => show win0_1.index t (1 : Fin 3) * 2048 + 1 * k.val = t.val % 2 * 2048 + k.val; omega
    | ⟨2, _⟩ => show win0_1.index t (2 : Fin 3) * 128 + 1 * q.val = q.val; omega
  show (V m c main_arg0 : S64x4096x128.Idx → EReal) (((cfg0.win 1).blk t).view.emb (ix3 (0 : Fin 1) k q)) = _
  rw [hemb, V_main_arg0]

/-- So the contribution of point `t` at (p, q) is its chunk's share of the segment sum's entry (batch, p, q). -/
theorem contrib_point (c : Dev nD) (t : Fin cfg0.N) (p : Fin 512) (q : Fin 128) :
    k0_pay1 (F := Ideal) (tgtBlk m c t) (msgBlk m c t) (ix2 p q)
      = chunkSum (m ((c : Thread nD τ).loc main_arg0)) (m ((c : Thread nD τ).loc main_arg1)) (batchOf t) p q (chunkOf t) := by
  refine (contrib_apply (tgtBlk m c t) (msgBlk m c t) p q).trans ?_
  unfold chunkSum
  refine Finset.sum_congr rfl fun k _ => ?_
  rw [tgt_read, msg_read]

/-! ## What an odd point writes back, and the array after the run -/

/-- The block an odd point leaves is the segment sum read through the point's output block: the even point's
    contribution is chunk 0's share, the odd point's chunk 1's, of one batch. -/
theorem block_eq (c : Dev nD) (t : Fin cfg0.N) (hodd : t.val % 2 = 1) (y : S1x512x128.Idx) :
    k0_pay3 (F := Ideal) (tgtBlk m c t) (msgBlk m c t) (k0_pay2 (tgtBlk m c (prev t)) (msgBlk m c (prev t))) y
      = segSum (m ((c : Thread nD τ).loc main_arg0)) (m ((c : Thread nD τ).loc main_arg1)) (((cfg0.win 2).blk t).view.emb y) := by
  obtain ⟨z, p, q, rfl⟩ : ∃ (z : Fin 1) (p : Fin 512) (q : Fin 128), y = ix3 z p q := ⟨y 0, y 1, y 2, eq_ix3 y⟩
  obtain ⟨-, -, -, -, -, -, e6, e7, e8⟩ := idx_facts t
  have hz : z.val = 0 := by have := z.isLt; omega
  have hemb : ((cfg0.win 2).blk t).view.emb (ix3 z p q) = (ix3 (batchOf t) p q : S64x512x128.Idx) := by
    funext a; apply Fin.ext
    match a with
    | ⟨0, _⟩ => show win0_2.index t (0 : Fin 3) * 1 + 1 * z.val = t.val / 2; omega
    | ⟨1, _⟩ => show win0_2.index t (1 : Fin 3) * 512 + 1 * p.val = p.val; omega
    | ⟨2, _⟩ => show win0_2.index t (2 : Fin 3) * 128 + 1 * q.val = q.val; omega
  rw [hemb, segSum_ix3, segSumAt_split, later_apply, contrib_point, contrib_point]
  have hb : batchOf (prev t) = batchOf t := Fin.ext (by show (t.val - 1) / 2 = t.val / 2; omega)
  have hc0 : chunkOf (prev t) = 0 := Fin.ext (by show (t.val - 1) % 2 = 0; omega)
  have hc1 : chunkOf t = 1 := Fin.ext (by show t.val % 2 = 1; exact hodd)
  rw [hb, hc0, hc1]

/-- WHAT AN ODD POINT WRITES BACK is its block of the segment sum. -/
theorem flushed_eq (c : Dev nD) (t : Fin cfg0.N) (hodd : t.val % 2 = 1) :
    (dats m 0 c).flushed 2 t
      = ((cfg0.win 2).blk t).view.read (Elt Ideal) (segSum (m ((c : Thread nD τ).loc main_arg0)) (m ((c : Thread nD τ).loc main_arg1))) := by
  show (cfg0.win 2).cut (grid0.coords t) ((dats m 0 c).after 2 t) = _
  rw [after_out, outAt_odd m c t (by omega)]
  funext y
  exact block_eq m c t hodd y

/-- An index of the result array is in point `t`'s block iff each coordinate is in the block's range on its axis. -/
theorem mem_blk_out (t : Fin cfg0.N) (i : S64x512x128.Idx) :
    i ∈ ((cfg0.win 2).blk t).view.set ↔ ∀ a : Fin 3, win0_2.index t a * S1x512x128.size a ≤ (i a).val ∧ (i a).val < win0_2.index t a * S1x512x128.size a + S1x512x128.size a := by
  show i ∈ ((View.whole main_v1).slice (win0_2.rect t)).set ↔ _
  rw [View.set_slice_whole, Rect.mem_set_unit]
  exact Iff.rfl

/-- Every entry of the result is in the block of the odd point of its batch. -/
theorem covered (i : S64x512x128.Idx) : ∃ t : Fin cfg0.N, (cfg0.win 2).flush t = true ∧ i ∈ ((cfg0.win 2).blk t).view.set := by
  have h0 : (i 0).val < 64 := (i 0).isLt
  have h1 : (i 1).val < 512 := (i 1).isLt
  have h2 : (i 2).val < 128 := (i 2).isLt
  have hlt : 2 * (i 0).val + 1 < cfg0.N := by rw [show cfg0.N = 128 from N_0]; omega
  obtain ⟨-, -, -, -, -, -, e6, e7, e8⟩ := idx_facts ⟨2 * (i 0).val + 1, hlt⟩
  refine ⟨⟨2 * (i 0).val + 1, hlt⟩, (flush0_2 _).mpr (by show (2 * (i 0).val + 1) % 2 = 1; omega), ?_⟩
  rw [mem_blk_out]
  intro a
  have e6' : win0_2.index ⟨2 * (i 0).val + 1, hlt⟩ (0 : Fin 3) = (2 * (i 0).val + 1) / 2 := e6
  match a with
  | ⟨0, _⟩ =>
    show win0_2.index ⟨2 * (i 0).val + 1, hlt⟩ (0 : Fin 3) * 1 ≤ (i 0).val ∧ (i 0).val < win0_2.index ⟨2 * (i 0).val + 1, hlt⟩ (0 : Fin 3) * 1 + 1
    omega
  | ⟨1, _⟩ =>
    show win0_2.index ⟨2 * (i 0).val + 1, hlt⟩ (1 : Fin 3) * 512 ≤ (i 1).val ∧ (i 1).val < win0_2.index ⟨2 * (i 0).val + 1, hlt⟩ (1 : Fin 3) * 512 + 512
    omega
  | ⟨2, _⟩ =>
    show win0_2.index ⟨2 * (i 0).val + 1, hlt⟩ (2 : Fin 3) * 128 ≤ (i 2).val ∧ (i 2).val < win0_2.index ⟨2 * (i 0).val + 1, hlt⟩ (2 : Fin 3) * 128 + 128
    omega

/-- THE RESULT ARRAY after the run is the segment sum of the argument arrays. -/
theorem final (c : Dev nD) :
    (dats m 0 c).arrAt 2 cfg0.N = segSum (m ((c : Thread nD τ).loc main_arg0)) (m ((c : Thread nD τ).loc main_arg1)) :=
  (dats m 0 c).arrAt_eq_of_cover 2 _ (fun t ht => flushed_eq m c t ((flush0_2 t).mp ht)) (fun i => covered i)

/-- The run, read: the result at the segment sum, the arguments unchanged. -/
theorem run : θ_run defs (onTc (τ := τ) (main (F := Ideal))) ⟨m, fun _ => 0, ρ⟩ fun r => ∀ c : Dev nD,
      r.2.mem ((c : Thread nD τ).loc main_v1) = segSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Seg

end
-- ==== Proof.RefValue.lean ====
/-
  The reference's result, index by index: it is the segment sum.

  The reference adds the batch offset b·512 to every target, flattens targets and messages over (batch, edge) into
  262144 rows, scatter-adds message row r onto row `flat[r]` of a zero [32768, 128] array, and reshapes to
  [64, 512, 128]. With every target in [0, 512), row r = b'·4096 + e lands on row b·512 + n exactly when b' = b and
  tgt[b, e] = n (the offset is below 2³¹, so nothing wraps and the signed reading is the plain sum), and a message
  element lands on its own feature column. So entry (b, n, d) is zero plus the sum of msg[b, e, d] over the edges e of
  batch b with target n: the sum over the update elements that land there, re-indexed by the edge.
-/
import proofs.«416885_j88579405512820_3_alg».proof.Proof.Gen.ReferenceIdeal.Run
import proofs.«416885_j88579405512820_3_alg».proof.Proof.Gen.ReferenceIdeal.Read
import proofs.«416885_j88579405512820_3_alg».proof.Proof.SegmentSum
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.SegmentSum
open Idealize.ShloMosaic Idealize.ShloMosaic.ValueIdx

/-! ## Where an update element lands -/

abbrev sc := scatter_S32768x128_S262144x1_S262144x128_1_0_0_1

/-- On the row axis the window starts at the update row's scatter index, read signed; -/
theorem start_row {w : Nat} (j : S262144x128.Idx) (idx : IVec S262144x1 w) : sc.start j idx 0 = (idx (ix2 (j 0) 0)).toInt := by
  unfold ScatterDims.start
  rw [dif_pos (show (0 : Fin S32768x128.rank) ∈ sc.scatterDimsToOperandDims by decide)]
  have e : sc.siIdx j ⟨sc.scatterDimsToOperandDims.idxOf (0 : Fin S32768x128.rank), List.idxOf_lt_length_iff.2 (show (0 : Fin S32768x128.rank) ∈ sc.scatterDimsToOperandDims by decide)⟩ = ix2 (j 0) 0 := by
    funext b; refine Fin.ext ?_
    match b with
    | ⟨0, _⟩ => rfl
    | ⟨1, _⟩ => rfl
  rw [e]
  rfl

/-- on the feature axis at zero. -/
theorem start_col {w : Nat} (j : S262144x128.Idx) (idx : IVec S262144x1 w) : sc.start j idx 1 = 0 := by
  unfold ScatterDims.start
  rw [dif_neg (show ¬(1 : Fin S32768x128.rank) ∈ sc.scatterDimsToOperandDims by decide)]

/-- The window has one row -/
theorem window_row (j : S262144x128.Idx) : sc.window j 0 = 0 := by
  unfold ScatterDims.window
  rw [dif_neg (show ¬(0 : Fin S32768x128.rank) ∈ sc.sKept by decide)]

/-- and all the features. -/
theorem window_col (j : S262144x128.Idx) : sc.window j 1 = (j 1).val := by
  unfold ScatterDims.window
  rw [dif_pos (show (1 : Fin S32768x128.rank) ∈ sc.sKept by decide)]
  rfl

/-- Update element `j = (r, d')` lands on operand element `i = (s, d)` exactly when row `r`'s scatter index, read
    signed, is `s` and `d' = d`. -/
theorem lands_iff {w : Nat} (j : S262144x128.Idx) (idx : IVec S262144x1 w) (i : S32768x128.Idx) :
    sc.resultIdx? j idx = some i ↔ (idx (ix2 (j 0) 0)).toInt = ((i 0).val : Int) ∧ (j 1).val = (i 1).val := by
  have hi0 : (i 0).val < 32768 := (i 0).isLt
  have hi1 : (i 1).val < 128 := (i 1).isLt
  unfold ScatterDims.resultIdx?
  constructor
  · intro h
    split at h
    · rename_i hr
      have hi := Option.some.inj h
      have h0 : (sc.start j idx 0 + sc.window j 0).toNat = (i 0).val := congrArg (fun f => (f 0).val) hi
      have h1 : (sc.start j idx 1 + sc.window j 1).toNat = (i 1).val := congrArg (fun f => (f 1).val) hi
      have r0 := (hr 0).1
      have r1 := (hr 1).1
      rw [start_row, window_row] at h0 r0
      rw [start_col, window_col] at h1 r1
      constructor <;> omega
    · cases h
  · rintro ⟨h0, h1⟩
    have hall : ∀ a, 0 ≤ sc.start j idx a + sc.window j a ∧ sc.start j idx a + sc.window j a < S32768x128.size a := by
      intro a
      match a with
      | ⟨0, _⟩ =>
        show 0 ≤ sc.start j idx 0 + sc.window j 0 ∧ sc.start j idx 0 + (sc.window j 0 : Int) < ((32768 : Nat) : Int)
        rw [start_row, window_row, h0]; omega
      | ⟨1, _⟩ =>
        show 0 ≤ sc.start j idx 1 + sc.window j 1 ∧ sc.start j idx 1 + (sc.window j 1 : Int) < ((128 : Nat) : Int)
        rw [start_col, window_col, h1]; omega
    rw [dif_pos hall]
    congr 1
    funext a; refine Fin.ext ?_
    match a with
    | ⟨0, _⟩ =>
      show (sc.start j idx 0 + sc.window j 0).toNat = (i 0).val
      rw [start_row, window_row, h0]; omega
    | ⟨1, _⟩ =>
      show (sc.start j idx 1 + sc.window j 1).toNat = (i 1).val
      rw [start_col, window_col, h1]; omega

/-! ## The flat segment index -/

/-- A target in [0, 512) plus the offset of a batch below 64 does not wrap, and reads signed as the plain sum. -/
theorem flat_word (x : BitVec 32) (b' : Nat) (hb : b' < 64) (hx : 0 ≤ x.toInt ∧ x.toInt < 512) :
    x.toNat < 512 ∧ (x + BitVec.ofNat 32 b' * 512#32).toInt = ((x.toNat + b' * 512 : Nat) : Int) := by
  have hn : x.toNat < 512 := by
    have := hx.1; have := hx.2
    rw [BitVec.toInt_eq_toNat_cond] at *
    split_ifs at * <;> omega
  refine ⟨hn, ?_⟩
  have e : (x + BitVec.ofNat 32 b' * 512#32).toNat = x.toNat + b' * 512 := by
    rw [BitVec.toNat_add, BitVec.toNat_mul, BitVec.toNat_ofNat]
    show (x.toNat + b' % 2 ^ 32 * 512 % 2 ^ 32) % 2 ^ 32 = x.toNat + b' * 512
    omega
  rw [BitVec.toInt_eq_toNat_cond, e, if_pos (by omega)]

/-- The row of the flattened arrays that holds (batch `b`, edge `e`), -/
def flatRow (b : Fin 64) (e : Fin 4096) : Fin 262144 :=
  ⟨b.val * 4096 + e.val, by have := b.isLt; have := e.isLt; omega⟩
/-- and the row of the scatter's operand that holds (batch `b`, node `n`). -/
def nodeRow (b : Fin 64) (n : Fin 512) : Fin 32768 :=
  ⟨b.val * 512 + n.val, by have := b.isLt; have := n.isLt; omega⟩

/-- The flat index array at (batch `b`, edge `e`): the target plus the batch's offset. -/
theorem flat_at (x1 : S64x4096.Idx → BitVec 32) (b : Fin 64) (e : Fin 4096) :
    val_main_v9 (F := Ideal) x1 (ix2 (flatRow b e) 0) = x1 (ix2 b e) + BitVec.ofNat 32 b.val * 512#32 := by
  rw [val_main_v9_apply, val_main_v6_apply, val_main_v5_apply, val_main_v4_apply, val_main_v3_apply, val_main_v1_apply,
    val_main_v0_apply, val_main_v2_apply, val_main_c_apply]
  have e6 : idx_main_v6 (idx_main_v9 (ix2 (flatRow b e) 0)) = ix2 b e := funext fun a => Fin.ext (by
    have := b.isLt; have := e.isLt
    match a with
    | ⟨0, _⟩ => show (b.val * 4096 + e.val) / 4096 = b.val; omega
    | ⟨1, _⟩ => show (b.val * 4096 + e.val) % 4096 = e.val; omega)
  rw [e6]
  rfl

/-- The flattened messages at (batch `b`, edge `e`), feature `d`. -/
theorem msg_flat (x0 : S64x4096x128.Idx → EReal) (b : Fin 64) (e : Fin 4096) (d : Fin 128) :
    val_main_v7 (F := Ideal) x0 (ix2 (flatRow b e) d) = x0 (ix3 b e d) := by
  rw [val_main_v7_apply]
  refine congrArg x0 (funext fun a => Fin.ext ?_)
  have := b.isLt; have := e.isLt; have := d.isLt
  match a with
  | ⟨0, _⟩ => show ((b.val * 4096 + e.val) * 128 + d.val) / 524288 = b.val; omega
  | ⟨1, _⟩ => show ((b.val * 4096 + e.val) * 128 + d.val) / 128 % 4096 = e.val; omega
  | ⟨2, _⟩ => show ((b.val * 4096 + e.val) * 128 + d.val) % 128 = d.val; omega

/-! ## The scatter read at a node's row: the segment sum -/

/-- With every target in [0, 512): the scatter-add into zero, at the row of (batch `b`, node `n`) and feature `d`, is
    the sum of the messages of batch `b` whose target is `n`. The update elements that land there are exactly the
    elements (row of (b, e), d) with tgt[b, e] = n, one per such edge. -/
theorem scatter_apply (x0 : S64x4096x128.Idx → EReal) (x1 : S64x4096.Idx → BitVec 32)
    (hx : ∀ j, 0 ≤ (x1 j).toInt ∧ (x1 j).toInt < 512) (b : Fin 64) (n : Fin 512) (d : Fin 128) :
    val_main_v10 (F := Ideal) x0 x1 (ix2 (nodeRow b n) d) = segSumAt x0 x1 b n d := by
  have hb := b.isLt; have hn := n.isLt; have hd := d.isLt
  unfold val_main_v10
  simp only [Host.scatterAdd]
  rw [Ideal.hostScatterAdd_def]
  unfold Ideal.hostScatterAdd
  rw [val_main_v8_apply, val_main_cst_apply]
  show Ideal.ofBits .f32 0x00000000#32 + _ = _
  rw [Ideal.ofBits_zero_f32, zero_add]
  unfold segSumAt
  rw [← Finset.sum_filter]
  symm
  refine Finset.sum_bij (fun e _ => ix2 (flatRow b e) d) ?_ ?_ ?_ ?_
  · intro e he
    rw [Finset.mem_filter] at he ⊢
    refine ⟨Finset.mem_univ _, ?_⟩
    rw [lands_iff]
    refine ⟨?_, rfl⟩
    show (val_main_v9 (F := Ideal) x1 (ix2 (flatRow b e) 0)).toInt = ((b.val * 512 + n.val : Nat) : Int)
    rw [flat_at]
    obtain ⟨h1, h2⟩ := flat_word (x1 (ix2 b e)) b.val hb (hx _)
    rw [h2, he.2, BitVec.toNat_ofNat]
    have : n.val % 2 ^ 32 = n.val := Nat.mod_eq_of_lt (by omega)
    rw [this]; push_cast; ring
  · intro e _ e' _ h
    have h0 : (flatRow b e).val = (flatRow b e').val := congrArg (fun f => (f 0).val) h
    refine Fin.ext ?_
    show e.val = e'.val
    have : b.val * 4096 + e.val = b.val * 4096 + e'.val := h0
    omega
  · intro j hj
    rw [Finset.mem_filter, lands_iff] at hj
    obtain ⟨-, h0, h1⟩ := hj
    have hr : (j 0).val < 262144 := (j 0).isLt
    let b' : Fin 64 := ⟨(j 0).val / 4096, by omega⟩
    let e' : Fin 4096 := ⟨(j 0).val % 4096, Nat.mod_lt _ (by decide)⟩
    have hj0 : ix2 (j 0) (0 : Fin 1) = ix2 (flatRow b' e') (0 : Fin 1) := by
      funext a; refine Fin.ext ?_
      match a with
      | ⟨0, _⟩ => show (j 0).val = (j 0).val / 4096 * 4096 + (j 0).val % 4096; omega
      | ⟨1, _⟩ => rfl
    have h0' : (val_main_v9 (F := Ideal) x1 (ix2 (flatRow b' e') 0)).toInt = ((b.val * 512 + n.val : Nat) : Int) := by
      rw [← hj0]; exact h0
    rw [flat_at] at h0'
    obtain ⟨g1, g2⟩ := flat_word (x1 (ix2 b' e')) b'.val b'.isLt (hx _)
    rw [g2] at h0'
    have hsum : (x1 (ix2 b' e')).toNat + b'.val * 512 = b.val * 512 + n.val := by exact_mod_cast h0'
    have hbb : b' = b := Fin.ext (by show b'.val = b.val; omega)
    have hxn : (x1 (ix2 b' e')).toNat = n.val := by omega
    refine ⟨e', ?_, ?_⟩
    · rw [Finset.mem_filter]
      refine ⟨Finset.mem_univ _, ?_⟩
      rw [← hbb]
      exact BitVec.eq_of_toNat_eq (by rw [BitVec.toNat_ofNat, hxn]; exact (Nat.mod_eq_of_lt (by omega)).symm)
    · funext a; refine Fin.ext ?_
      match a with
      | ⟨0, _⟩ =>
        show b.val * 4096 + (j 0).val % 4096 = (j 0).val
        have : (j 0).val / 4096 = b.val := congrArg Fin.val hbb
        omega
      | ⟨1, _⟩ => exact h1.symm
  · intro e _
    exact (msg_flat x0 b e d).symm

/-- THE REFERENCE IS THE SEGMENT SUM, under the targets' range. -/
theorem ref_eq (x0 : S64x4096x128.Idx → EReal) (x1 : S64x4096.Idx → BitVec 32)
    (hx : ∀ j, 0 ≤ (x1 j).toInt ∧ (x1 j).toInt < 512) :
    val_main_v11 (F := Ideal) x0 x1 = segSum x0 x1 := by
  funext i
  obtain ⟨b, n, d, rfl⟩ : ∃ (b : Fin 64) (n : Fin 512) (d : Fin 128), i = ix3 b n d := ⟨i 0, i 1, i 2, eq_ix3 i⟩
  rw [val_main_v11_apply, segSum_ix3]
  have e11 : idx_main_v11 (ix3 b n d) = ix2 (nodeRow b n) d := funext fun a => Fin.ext (by
    have := b.isLt; have := n.isLt; have := d.isLt
    match a with
    | ⟨0, _⟩ => show ((b.val * 512 + n.val) * 128 + d.val) / 128 = b.val * 512 + n.val; omega
    | ⟨1, _⟩ => show ((b.val * 512 + n.val) * 128 + d.val) % 128 = d.val; omega)
  rw [e11]
  exact scatter_apply x0 x1 hx b n d

end Cert.ReferenceIdeal.RefValue

end
-- ==== Proof.PreDecode.lean ====
/-
  The precondition, read back: every target index lies in [0, 512).

  The precondition is a conjunction of four `all`s; the last two say that every target is ≥ 0 and < 512 as signed
  words. A conjunction that is 1 has both conjuncts 1, an `all` that is 1 has every element 1, and a signed
  comparison that is 1 is the inequality of the signed values.
-/
import proofs.«416885_j88579405512820_3_alg».proof.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

/-- Where the precondition holds, every target index is in [0, 512), read signed. -/
theorem tgt_range {F : FTy → Type} [FloatOps F] [Facts] (x0 : FVec F S64x4096x128 .f32) (x1 : IVec S64x4096 32)
    (x2 : FVec F S64x512x128 .f32) (h : fn (F := F) x0 x1 x2 = fun _ => 1#1) (j : S64x4096.Idx) :
    0 ≤ (x1 j).toInt ∧ (x1 j).toInt < 512 := by
  have h0 := congrFun h ix0
  dsimp only [fn, fn_part1] at h0
  obtain ⟨h12, h15⟩ := IntOp.andi_eq_one.1 h0
  obtain ⟨h8, h11⟩ := IntOp.andi_eq_one.1 h12
  have hge := Host.reduce_andi_all _ _ _ _ _ h11 j
  have hlt := Host.reduce_andi_all _ _ _ _ _ h15 j
  have hge' : IntOp.cmpi .sge (x1 j) 0#32 = 1#1 := hge
  have hlt' : IntOp.cmpi .slt (x1 j) 512#32 = 1#1 := hlt
  rw [IntOp.cmpi_sge] at hge'
  rw [IntOp.cmpi_slt] at hlt'
  have z0 : (0#32 : BitVec 32).toInt = 0 := by decide
  have z5 : (512#32 : BitVec 32).toInt = 512 := by decide
  rw [z0] at hge'; rw [z5] at hlt'
  exact ⟨hge', hlt'⟩

end Cert.Pre_finite_inputs.Decode

end
-- ==== Proof.lean ====
/-
  The certificate of the batched segment sum: a Pallas kernel that sums, for every batch b and node n, the messages
  of the edges of b whose target is n — as a one-hot matrix product over the 4096 edges, 2048 at a time, the second
  half accumulated onto the first in the output block — against `jax.ops.segment_sum` over the flattened segment
  index b·512 + tgt.

  Under the precondition — finite floats, and every target index in [0, 512), the range the reference's contract
  states — both programs compute, over the extended reals,
      out[b, n, d] = ∑ over edges e of batch b with tgt[b, e] = n of msg[b, e, d].
  Outside that range the two differ (the reference's flat index then lands in another batch's rows; the kernel's
  comparison matches no row), which is why the range is part of the claim. The finiteness of the floats is never
  used: a one-hot entry times a message is the message or zero on every extended real, and sums of extended reals
  may be regrouped freely.

  The kernel's frame (at the word-level and at the ideal instance alike: Proof/BitsFrame.lean, Proof/IdealFrame.lean)
  names what the output block holds after every grid point; Proof/IdealValue.lean reads the final array off it,
  Proof/RefValue.lean reads the reference's scatter, Proof/PreDecode.lean the precondition, and Proof/SegmentSum.lean
  states the common function and the one law that joins the two sides: the sum over the edges splits into the two
  chunks' sums.
-/
import proofs.«416885_j88579405512820_3_alg».proof.Defs
import proofs.«416885_j88579405512820_3_alg».proof.Proof.Gen.Kernel
import proofs.«416885_j88579405512820_3_alg».proof.Proof.Gen.KernelIdeal
import proofs.«416885_j88579405512820_3_alg».proof.Proof.Gen.ReferenceIdeal
import proofs.«416885_j88579405512820_3_alg».proof.Proof.Gen.Pre_finite_inputs
import proofs.«416885_j88579405512820_3_alg».proof.Proof.Gen.ReferenceIdeal.Run
import proofs.«416885_j88579405512820_3_alg».proof.Proof.Gen.ReferenceIdeal.Read
import proofs.«416885_j88579405512820_3_alg».proof.Proof.BitsFrame
import proofs.«416885_j88579405512820_3_alg».proof.Proof.IdealFrame
import proofs.«416885_j88579405512820_3_alg».proof.Proof.IdealValue
import proofs.«416885_j88579405512820_3_alg».proof.Proof.RefValue
import proofs.«416885_j88579405512820_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Seg.frame m ρ

/-- So does the kernel read at the ideal instance. -/
theorem frame_kernelIdeal : Cert.frame_KernelIdeal := fun m ρ _ => Cert.KernelIdeal.Seg.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the segment sum of the (agreeing) arguments: the kernel by its frame read back, the reference
    by its scatter read at an index, the targets in range by the precondition. -/
theorem algebraic : Cert.algebraic_KernelIdeal_ReferenceIdeal := by
  intro m ρ m' ρ' hpre hagree
  refine ⟨fun c => Cert.SegmentSum.segSum (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Seg.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, Cert.ReferenceIdeal.Read.val_main_v11_eq]
  exact Cert.ReferenceIdeal.RefValue.ref_eq _ _ (fun j => Cert.Pre_finite_inputs.Decode.tgt_range _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
